-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : IVec S2x640000 32) (main_arg2 : FVec F S640000 .f32) (main_arg3 : FVec F S128x128 .f32) (main_arg4 : FVec F S128 .f32) (main_arg5 : FVec F S128x128 .f32) (main_arg6 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S10000x128 : Shape := ⟨2, ![10000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S1x640000 : Shape := ⟨2, ![1, 640000]⟩
abbrev S10000 : Shape := ⟨1, ![10000]⟩
abbrev S650000 : Shape := ⟨1, ![650000]⟩
abbrev S_ : Shape := ⟨0, ![]⟩
abbrev S650000x1 : Shape := ⟨2, ![650000, 1]⟩
abbrev S2000x128 : Shape := ⟨2, ![2000, 128]⟩
abbrev S650000x128 : Shape := ⟨2, ![650000, 128]⟩
abbrev S1x128 : Shape := ⟨2, ![1, 128]⟩

abbrev nBuf : Space → Nat
  | .hbm => 86
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S10000, .i32⟩
  | .hbm, ⟨12, _⟩ => ⟨S650000, .i32⟩
  | .hbm, ⟨13, _⟩ => ⟨S650000, .i32⟩
  | .hbm, ⟨14, _⟩ => ⟨S_, .f32⟩
  | .hbm, ⟨15, _⟩ => ⟨S10000, .f32⟩
  | .hbm, ⟨16, _⟩ => ⟨S650000, .f32⟩
  | .hbm, ⟨17, _⟩ => ⟨S_, .f32⟩
  | .hbm, ⟨18, _⟩ => ⟨S10000, .f32⟩
  | .hbm, ⟨19, _⟩ => ⟨S650000x1, .i32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .i1⟩
  | .hbm, ⟨24, _⟩ => ⟨S10000, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S_, .i32⟩
  | .hbm, ⟨29, _⟩ => ⟨S650000, .i32⟩
  | .hbm, ⟨30, _⟩ => ⟨S650000, .i1⟩
  | .hbm, ⟨31, _⟩ => ⟨S_, .i32⟩
  | .hbm, ⟨32, _⟩ => ⟨S650000, .i32⟩
  | .hbm, ⟨33, _⟩ => ⟨S650000, .i32⟩
  | .hbm, ⟨34, _⟩ => ⟨S650000, .i32⟩
  | .hbm, ⟨35, _⟩ => ⟨S650000x1, .i32⟩
  | .hbm, ⟨36, _⟩ => ⟨S650000, .f32⟩
  | .hbm, ⟨37, _⟩ => ⟨S650000, .f32⟩
  | .hbm, ⟨38, _⟩ => ⟨S_, .i32⟩
  | .hbm, ⟨39, _⟩ => ⟨S650000, .i32⟩
  | .hbm, ⟨40, _⟩ => ⟨S650000, .i1⟩
  | .hbm, ⟨41, _⟩ => ⟨S_, .i32⟩
  | .hbm, ⟨42, _⟩ => ⟨S650000, .i32⟩
  | .hbm, ⟨43, _⟩ => ⟨S650000, .i32⟩
  | .hbm, ⟨44, _⟩ => ⟨S650000, .i32⟩
  | .hbm, ⟨45, _⟩ => ⟨S650000x1, .i32⟩
  | .hbm, ⟨46, _⟩ => ⟨S650000, .f32⟩
  | .hbm, ⟨47, _⟩ => ⟨S650000, .f32⟩
  | .hbm, ⟨48, _⟩ => ⟨S10000x128, .f32⟩
  | .hbm, ⟨49, _⟩ => ⟨S650000x1, .f32⟩
  | .hbm, ⟨50, _⟩ => ⟨S_, .i32⟩
  | .hbm, ⟨51, _⟩ => ⟨S650000, .i32⟩
  | .hbm, ⟨52, _⟩ => ⟨S650000, .i1⟩
  | .hbm, ⟨53, _⟩ => ⟨S_, .i32⟩
  | .hbm, ⟨54, _⟩ => ⟨S650000, .i32⟩
  | .hbm, ⟨55, _⟩ => ⟨S650000, .i32⟩
  | .hbm, ⟨56, _⟩ => ⟨S650000, .i32⟩
  | .hbm, ⟨57, _⟩ => ⟨S650000x1, .i32⟩
  | .hbm, ⟨58, _⟩ => ⟨S650000x128, .f32⟩
  | .hbm, ⟨59, _⟩ => ⟨S650000x128, .f32⟩
  | .hbm, ⟨60, _⟩ => ⟨S650000x128, .f32⟩
  | .hbm, ⟨61, _⟩ => ⟨S_, .f32⟩
  | .hbm, ⟨62, _⟩ => ⟨S10000x128, .f32⟩
  | .hbm, ⟨63, _⟩ => ⟨S650000x1, .i32⟩
  | .hbm, ⟨64, _⟩ => ⟨S10000x128, .f32⟩
  | .hbm, ⟨65, _⟩ => ⟨S1x128, .f32⟩
  | .hbm, ⟨66, _⟩ => ⟨S10000x128, .f32⟩
  | .hbm, ⟨67, _⟩ => ⟨S10000x128, .f32⟩
  | .hbm, ⟨68, _⟩ => ⟨S650000x1, .f32⟩
  | .hbm, ⟨69, _⟩ => ⟨S_, .i32⟩
  | .hbm, ⟨70, _⟩ => ⟨S650000, .i32⟩
  | .hbm, ⟨71, _⟩ => ⟨S650000, .i1⟩
  | .hbm, ⟨72, _⟩ => ⟨S_, .i32⟩
  | .hbm, ⟨73, _⟩ => ⟨S650000, .i32⟩
  | .hbm, ⟨74, _⟩ => ⟨S650000, .i32⟩
  | .hbm, ⟨75, _⟩ => ⟨S650000, .i32⟩
  | .hbm, ⟨76, _⟩ => ⟨S650000x1, .i32⟩
  | .hbm, ⟨77, _⟩ => ⟨S650000x128, .f32⟩
  | .hbm, ⟨78, _⟩ => ⟨S650000x128, .f32⟩
  | .hbm, ⟨79, _⟩ => ⟨S650000x128, .f32⟩
  | .hbm, ⟨80, _⟩ => ⟨S_, .f32⟩
  | .hbm, ⟨81, _⟩ => ⟨S10000x128, .f32⟩
  | .hbm, ⟨82, _⟩ => ⟨S650000x1, .i32⟩
  | .hbm, ⟨83, _⟩ => ⟨S10000x128, .f32⟩
  | .hbm, ⟨84, _⟩ => ⟨S1x128, .f32⟩
  | .hbm, ⟨85, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_9 : Ref sig .tc := ⟨.hbm, 69, rfl⟩
abbrev main_v51 : Ref sig .tc := ⟨.hbm, 70, rfl⟩
abbrev main_v52 : Ref sig .tc := ⟨.hbm, 71, rfl⟩
abbrev main_c_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S10000_S650000_d0 : Shape.Concatenates [S640000, S10000] S650000 0
  bcast_S_S10000 : S_.BroadcastsInDim S10000 (![] : Fin 0 → Fin S10000.rank)
  bcast_S650000_S650000x1_0 : S650000.BroadcastsInDim S650000x1 (![0] : Fin 1 → Fin S650000x1.rank)
  bcast_S_S650000 : S_.BroadcastsInDim S650000 (![] : Fin 0 → Fin S650000.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S10000x128 : S_.BroadcastsInDim S10000x128 (![] : Fin 0 → Fin S10000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  dot_S2000x128_S128x128_S2000x128_1_0_0_1_n_n_wf : DotDims.WF S2000x128 S128x128 S2000x128 [1] [0] [0] [1] [] []
  gather_S10000x128_S650000x1_S650000x128_1_0_n_n_0_1_1128_wf : GatherDims.WF S10000x128 S650000x1 S650000x128 [1] [0] [] [0] [] 1 ![1, 128]
  scatter_S10000x128_S650000x1_S650000x128_1_0_0_1_wf : ScatterDims.WF S10000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S10000x128.size a
  hwx0_2 : ∀ i : grid0.Coords, EltTy.bits .f32 = 32 ∨ (Rect.block (s := S10000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S10000x128.size a
  hwx1_2 : ∀ i : grid1.Coords, EltTy.bits .f32 = 32 ∨ (Rect.block (s := S10000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S10000x128.size a
  hwx2_0 : ∀ i : grid2.Coords, EltTy.bits .f32 = 32 ∨ (Rect.block (s := S10000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S10000x128.size a
  hwx2_2 : ∀ i : grid2.Coords, EltTy.bits .f32 = 32 ∨ (Rect.block (s := S10000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S10000x128.size a
  hwx3_0 : ∀ i : grid3.Coords, EltTy.bits .f32 = 32 ∨ (Rect.block (s := S10000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S10000x128.size a
  hwx3_2 : ∀ i : grid3.Coords, EltTy.bits .f32 = 32 ∨ (Rect.block (s := S10000x128) S2000x128.size (cc3_transform_2 i) (hinb3_2 i)).WholeWords (EltTy.packing .f32)

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S10000x128_S650000x1_S650000x128_1_0_n_n_0_1_1128 : GatherDims S10000x128 S650000x1 S650000x128 where
  offsetDims := [1]
  collapsedSliceDims := [0]
  operandBatchingDims := []
  startIndicesBatchingDims := []
  startIndexMap := [0]
  indexVectorDim := 1
  sliceSizes := ![1, 128]
  wf := gather_S10000x128_S650000x1_S650000x128_1_0_n_n_0_1_1128_wf
def scatter_S10000x128_S650000x1_S650000x128_1_0_0_1 : ScatterDims S10000x128 S650000x1 S650000x128 where
  updateWindowDims := [1]
  insertedWindowDims := [0]
  scatterDimsToOperandDims := [0]
  indexVectorDim := 1
  wf := scatter_S10000x128_S650000x1_S650000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S1x640000 : Shape := ⟨2, ![1, 640000]⟩
abbrev S10000 : Shape := ⟨1, ![10000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 135
  | .vmem => 0
  | .smem => 0
  | _ => 0

abbrev hbmTy0_0 (i : Nat) : BufTy := match i % 128 with
  | 0 => ⟨S10000x128, .f32⟩
  | 1 => ⟨S2x640000, .i32⟩
  | 2 => ⟨S640000, .f32⟩
  | 3 => ⟨S128x128, .f32⟩
  | 4 => ⟨S128, .f32⟩
  | 5 => ⟨S128x128, .f32⟩
  | 6 => ⟨S128, .f32⟩
  | 7 => ⟨S10000x128, .f32⟩
  | 8 => ⟨S1x640000, .i32⟩
  | 9 => ⟨S640000, .i32⟩
  | 10 => ⟨S1x640000, .i32⟩
  | 11 => ⟨S640000, .i32⟩
  | 12 => ⟨S10000, .i32⟩
  | 13 => ⟨S650000, .i32⟩
  | 14 => ⟨S650000, .i32⟩
  | 15 => ⟨S_, .f32⟩
  | 16 => ⟨S10000, .f32⟩
  | 17 => ⟨S650000, .f32⟩
  | 18 => ⟨S_, .f32⟩
  | 19 => ⟨S10000, .f32⟩
  | 20 => ⟨S650000x1, .i32⟩
  | 21 => ⟨S10000, .f32⟩
  | 22 => ⟨S_, .f32⟩
  | 23 => ⟨S10000, .f32⟩
  | 24 => ⟨S10000, .i1⟩
  | 25 => ⟨S10000, .f32⟩
  | 26 => ⟨S_, .f32⟩
  | 27 => ⟨S10000, .f32⟩
  | 28 => ⟨S10000, .f32⟩
  | 29 => ⟨S_, .i32⟩
  | 30 => ⟨S650000, .i32⟩
  | 31 => ⟨S650000, .i1⟩
  | 32 => ⟨S_, .i32⟩
  | 33 => ⟨S650000, .i32⟩
  | 34 => ⟨S650000, .i32⟩
  | 35 => ⟨S650000, .i32⟩
  | 36 => ⟨S650000x1, .i32⟩
  | 37 => ⟨S650000, .f32⟩
  | 38 => ⟨S650000, .f32⟩
  | 39 => ⟨S_, .i32⟩
  | 40 => ⟨S650000, .i32⟩
  | 41 => ⟨S650000, .i1⟩
  | 42 => ⟨S_, .i32⟩
  | 43 => ⟨S650000, .i32⟩
  | 44 => ⟨S650000, .i32⟩
  | 45 => ⟨S650000, .i32⟩
  | 46 => ⟨S650000x1, .i32⟩
  | 47 => ⟨S650000, .f32⟩
  | 48 => ⟨S650000, .f32⟩
  | 49 => ⟨S650000x1, .f32⟩
  | 50 => ⟨S_, .i32⟩
  | 51 => ⟨S650000, .i32⟩
  | 52 => ⟨S650000, .i1⟩
  | 53 => ⟨S_, .i32⟩
  | 54 => ⟨S650000, .i32⟩
  | 55 => ⟨S650000, .i32⟩
  | 56 => ⟨S650000, .i32⟩
  | 57 => ⟨S650000x1, .i32⟩
  | 58 => ⟨S650000x128, .f32⟩
  | 59 => ⟨S650000x128, .f32⟩
  | 60 => ⟨S650000x128, .f32⟩
  | 61 => ⟨S_, .f32⟩
  | 62 => ⟨S10000x128, .f32⟩
  | 63 => ⟨S650000x1, .i32⟩
  | 64 => ⟨S10000x128, .f32⟩
  | 65 => ⟨S1x128, .f32⟩
  | 66 => ⟨S10000x128, .f32⟩
  | 67 => ⟨S10000x128, .f32⟩
  | 68 => ⟨S_, .f32⟩
  | 69 => ⟨S10000x128, .f32⟩
  | 70 => ⟨S10000x128, .f32⟩
  | 71 => ⟨S10000x128, .f32⟩
  | 72 => ⟨S1x640000, .i32⟩
  | 73 => ⟨S640000, .i32⟩
  | 74 => ⟨S1x640000, .i32⟩
  | 75 => ⟨S640000, .i32⟩
  | 76 => ⟨S10000, .i32⟩
  | 77 => ⟨S650000, .i32⟩
  | 78 => ⟨S650000, .i32⟩
  | 79 => ⟨S_, .f32⟩
  | 80 => ⟨S10000, .f32⟩
  | 81 => ⟨S650000, .f32⟩
  | 82 => ⟨S_, .f32⟩
  | 83 => ⟨S10000, .f32⟩
  | 84 => ⟨S650000x1, .i32⟩
  | 85 => ⟨S10000, .f32⟩
  | 86 => ⟨S_, .f32⟩
  | 87 => ⟨S10000, .f32⟩
  | 88 => ⟨S10000, .i1⟩
  | 89 => ⟨S10000, .f32⟩
  | 90 => ⟨S_, .f32⟩
  | 91 => ⟨S10000, .f32⟩
  | 92 => ⟨S10000, .f32⟩
  | 93 => ⟨S_, .i32⟩
  | 94 => ⟨S650000, .i32⟩
  | 95 => ⟨S650000, .i1⟩
  | 96 => ⟨S_, .i32⟩
  | 97 => ⟨S650000, .i32⟩
  | 98 => ⟨S650000, .i32⟩
  | 99 => ⟨S650000, .i32⟩
  | 100 => ⟨S650000x1, .i32⟩
  | 101 => ⟨S650000, .f32⟩
  | 102 => ⟨S650000, .f32⟩
  | 103 => ⟨S_, .i32⟩
  | 104 => ⟨S650000, .i32⟩
  | 105 => ⟨S650000, .i1⟩
  | 106 => ⟨S_, .i32⟩
  | 107 => ⟨S650000, .i32⟩
  | 108 => ⟨S650000, .i32⟩
  | 109 => ⟨S650000, .i32⟩
  | 110 => ⟨S650000x1, .i32⟩
  | 111 => ⟨S650000, .f32⟩
  | 112 => ⟨S650000, .f32⟩
  | 113 => ⟨S650000x1, .f32⟩
  | 114 => ⟨S_, .i32⟩
  | 115 => ⟨S650000, .i32⟩
  | 116 => ⟨S650000, .i1⟩
  | 117 => ⟨S_, .i32⟩
  | 118 => ⟨S650000, .i32⟩
  | 119 => ⟨S650000, .i32⟩
  | 120 => ⟨S650000, .i32⟩
  | 121 => ⟨S650000x1, .i32⟩
  | 122 => ⟨S650000x128, .f32⟩
  | 123 => ⟨S650000x128, .f32⟩
  | 124 => ⟨S650000x128, .f32⟩
  | 125 => ⟨S_, .f32⟩
  | 126 => ⟨S10000x128, .f32⟩
  | 127 => ⟨S650000x1, .i32⟩
  | _ => ⟨S10000x128, .f32⟩

abbrev hbmTy0_1 (i : Nat) : BufTy := match i % 128 with
  | 0 => ⟨S10000x128, .f32⟩
  | 1 => ⟨S1x128, .f32⟩
  | 2 => ⟨S10000x128, .f32⟩
  | 3 => ⟨S10000x128, .f32⟩
  | 4 => ⟨S_, .f32⟩
  | 5 => ⟨S10000x128, .f32⟩
  | 6 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call1_cst : Ref sig .tc := ⟨.hbm, 68, rfl⟩
abbrev main_call1_v0 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_9 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_c_13 : Ref sig .tc := ⟨.hbm, 93, rfl⟩
abbrev main_v69 : Ref sig .tc := ⟨.hbm, 94, rfl⟩
abbrev main_v70 : Ref sig .tc := ⟨.hbm, 95, rfl⟩
abbrev main_c_14 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_15 : Ref sig .tc := ⟨.hbm, 103, rfl⟩
abbrev main_v77 : Ref sig .tc := ⟨.hbm, 104, rfl⟩
abbrev main_v78 : Ref sig .tc := ⟨.hbm, 105, rfl⟩
abbrev main_c_16 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_c_17 : Ref sig .tc := ⟨.hbm, 114, rfl⟩
abbrev main_v86 : Ref sig .tc := ⟨.hbm, 115, rfl⟩
abbrev main_v87 : Ref sig .tc := ⟨.hbm, 116, rfl⟩
abbrev main_c_18 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_19 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_call3_cst : Ref sig .tc := ⟨.hbm, 132, rfl⟩
abbrev main_call3_v0 : Ref sig .tc := ⟨.hbm, 133, rfl⟩
abbrev main_v101 : Ref sig .tc := ⟨.hbm, 134, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S10000_S650000_d0 : Shape.Concatenates [S640000, S10000] S650000 0
  bcast_S_S10000 : S_.BroadcastsInDim S10000 (![] : Fin 0 → Fin S10000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  gather_S10000x128_S650000x1_S650000x128_1_0_n_n_0_1_1128_wf : GatherDims.WF S10000x128 S650000x1 S650000x128 [1] [0] [] [0] [] 1 ![1, 128]
  scatter_S10000x128_S650000x1_S650000x128_1_0_0_1_wf : ScatterDims.WF S10000x128 S650000x1 S650000x128 [1] [0] [0] 1

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def gather_S10000x128_S650000x1_S650000x128_1_0_n_n_0_1_1128 : GatherDims S10000x128 S650000x1 S650000x128 where
  offsetDims := [1]
  collapsedSliceDims := [0]
  operandBatchingDims := []
  startIndicesBatchingDims := []
  startIndexMap := [0]
  indexVectorDim := 1
  sliceSizes := ![1, 128]
  wf := gather_S10000x128_S650000x1_S650000x128_1_0_n_n_0_1_1128_wf
def scatter_S10000x128_S650000x1_S650000x128_1_0_0_1 : ScatterDims S10000x128 S650000x1 S650000x128 where
  updateWindowDims := [1]
  insertedWindowDims := [0]
  scatterDimsToOperandDims := [0]
  indexVectorDim := 1
  wf := scatter_S10000x128_S650000x1_S650000x128_1_0_0_1_wf

class Facts : Prop extends Facts₀ where

variable [Facts]
-- ==== Proof.Spec.lean ====
/-
  The two whole-array functions of this certificate, over the extended reals, index by index.

  A graph-convolution layer is  relu (A · (X · W) + b)  with A the normalized adjacency (with self loops), applied by a
  gather and a scatter-add that both programs spell with the same host operations. What the two programs compute
  differently is only the dense part: the product X · W (the kernel block by block over the rows, the reference in
  one `dot_general`) and the bias-and-clamp epilogue. `matProd` and `biasRelu` are those two as plain functions.
-/
import Idealize.ShloMosaic.PureOps.Ideal
import Idealize.ShloMosaic.Lib.ValueIdx

noncomputable section

namespace Cert.Spec

open Idealize.ShloMosaic Idealize.ShloMosaic.ValueIdx

/-- The nodes' feature matrices, the weights, a bias row and a bias vector, as index types. -/
abbrev Nodes : Shape := ⟨2, ![10000, 128]⟩
abbrev Weights : Shape := ⟨2, ![128, 128]⟩
abbrev BiasRow : Shape := ⟨2, ![1, 128]⟩
abbrev BiasVec : Shape := ⟨1, ![128]⟩

/-- Entry (r, k) of a node matrix and entry (k, c) of a weight matrix, from an output index (r, c). -/
abbrev rowAt (i : Nodes.Idx) (k : Fin 128) : Nodes.Idx := fun a => match a with
  | ⟨0, _⟩ => ⟨(i 0).val, (i 0).isLt⟩
  | ⟨1, _⟩ => ⟨k.val, k.isLt⟩
abbrev colAt (i : Nodes.Idx) (k : Fin 128) : Weights.Idx := fun a => match a with
  | ⟨0, _⟩ => ⟨k.val, k.isLt⟩
  | ⟨1, _⟩ => ⟨(i 1).val, (i 1).isLt⟩

/-- The matrix product X · W: entry (r, c) is the sum over k of X (r, k) · W (k, c). -/
def matProd (x : Nodes.Idx → EReal) (w : Weights.Idx → EReal) : Nodes.Idx → EReal :=
  fun i => ∑ k : Fin 128, x (rowAt i k) * w (colAt i k)

/-- The bias of an entry's column, read from a bias vector. -/
abbrev vecAt (i : Nodes.Idx) : BiasVec.Idx := fun a => match a with
  | ⟨0, _⟩ => ⟨(i 1).val, (i 1).isLt⟩

/-- Add the column's bias, then clamp below at zero. -/
def biasRelu (a : Nodes.Idx → EReal) (b : BiasVec.Idx → EReal) : Nodes.Idx → EReal :=
  fun i => max (a i + b (vecAt i)) 0

end Cert.Spec

end
-- ==== Proof.MatmulBlock.lean ====
/-
  The body of a matrix-product region, read at an index. The body rounds a [2000, 128] block and a [128, 128] block to
  bf16 (the identity on the extended reals), multiplies them into a zero accumulator and stores the product whole. Read
  at (r, c) the product is the sum over the contraction index k of left (r, k) · right (k, c).
-/
import proofs.«113079_j32925219291716_1_alg».proof.Proof.Gen.KernelIdeal.Frame
import proofs.«113079_j32925219291716_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.MatmulBlock

open Cert.KernelIdeal Cert.KernelIdeal.Gen Idealize.ShloMosaic Idealize.ShloMosaic.TcCoe Idealize.SL.Sem
open Idealize.ShloMosaic.Pipeline (Dat)

/-! ## The block product at an index -/

theorem lhsB_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhsB_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhsB_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhsB_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (r, k) of the left block and entry (k, c) of the right block, from an output index (r, c) of the block. -/
abbrev lrow (j : S2000x128.Idx) (k : Fin 128) : S2000x128.Idx := fun a => match a with
  | ⟨0, _⟩ => ⟨(j 0).val, (j 0).isLt⟩
  | ⟨1, _⟩ => ⟨k.val, k.isLt⟩
abbrev rcol (j : S2000x128.Idx) (k : Fin 128) : S128x128.Idx := fun a => match a with
  | ⟨0, _⟩ => ⟨k.val, k.isLt⟩
  | ⟨1, _⟩ => ⟨(j 1).val, (j 1).isLt⟩

/-- The body's product of two blocks, read at (r, c): rounding to bf16 is the identity on the extended reals and the
    accumulator is zero, so it is the plain sum over k of left (r, k) · right (k, c). -/
theorem blockProd_apply (x0 : Vec Ideal S2000x128 .f32) (x1 : Vec Ideal S128x128 .f32) (j : S2000x128.Idx) :
    matmul (F := Ideal) dot_S2000x128_S128x128_S2000x128_1_0_0_1_n_n none (truncf .bf16 x0 bitsLt_bf16_f32) (truncf .bf16 x1 bitsLt_bf16_f32) (constant S2000x128 .f32 0x00000000#32) j
      = ∑ k : Fin 128, x0 (lrow j k) * x1 (rcol j k) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = lrow j k := funext fun a => Fin.ext (by
    match a with
    | ⟨0, _⟩ => exact lhsB_0 _ _
    | ⟨1, _⟩ => exact (lhsB_1 _ _).trans hk)
  have er : dot_S2000x128_S128x128_S2000x128_1_0_0_1_n_n.rhsIdx j ((ValueIdx.contrEquiv1 dot_S2000x128_S128x128_S2000x128_1_0_0_1_n_n 128 rfl rfl).symm k) = rcol j k := funext fun a => Fin.ext (by
    match a with
    | ⟨0, _⟩ => exact (rhsB_0 _ _).trans hk
    | ⟨1, _⟩ => exact rhsB_1 _ _)
  rw [el, er]
  rfl

/-- Both regions' payloads are that product of their two loaded blocks (the second region's first casts its left block
    to its own shape, which changes nothing). -/
theorem pay0_eq (x0 : Vec Ideal S2000x128 .f32) (x1 : Vec Ideal S128x128 .f32) :
    k0_pay1 (F := Ideal) x0 x1 = matmul (F := Ideal) dot_S2000x128_S128x128_S2000x128_1_0_0_1_n_n none (truncf .bf16 x0 bitsLt_bf16_f32) (truncf .bf16 x1 bitsLt_bf16_f32) (constant S2000x128 .f32 0x00000000#32) := rfl
theorem pay2_eq (x0 : Vec Ideal S2000x128 .f32) (x1 : Vec Ideal S128x128 .f32) :
    k2_pay1 (F := Ideal) x0 x1 = matmul (F := Ideal) dot_S2000x128_S128x128_S2000x128_1_0_0_1_n_n none (truncf .bf16 x0 bitsLt_bf16_f32) (truncf .bf16 x1 bitsLt_bf16_f32) (constant S2000x128 .f32 0x00000000#32) := by
  unfold k2_pay1
  rw [shapeCast_self]

theorem hz : (![0, 0] : Fin 2 → Nat) = fun _ => 0 := funext fun a => by fin_cases a <;> rfl

end Cert.KernelIdeal.MatmulBlock

end
-- ==== Proof.MatmulRegion0.lean ====
/-
  The first matrix-product region: the node features `main_arg0` times the first layer's weights `main_arg3`, 2000 rows
  at a grid point. A block's row r is the array's row 2000 · t + r and the weights' block is the whole weight matrix, so
  what point t writes back is block t of the whole product; the five blocks tile the rows. After the region the output
  array is `Cert.Spec.matProd` of the two arrays the region was entered with, whatever those were (`V`).
-/
import proofs.«113079_j32925219291716_1_alg».proof.Proof.MatmulBlock

set_option maxRecDepth 16384

noncomputable section

namespace Cert.KernelIdeal.MatmulRegion0

open Cert.KernelIdeal Cert.KernelIdeal.Gen Cert.KernelIdeal.MatmulBlock Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The two arrays the region reads, as it finds them, at their literal types. -/
abbrev lhsArr (c : Dev nD) : S10000x128.Idx → Elt Ideal .f32 := V c main_arg0
abbrev rhsArr (c : Dev nD) : S128x128.Idx → Elt Ideal .f32 := V c main_arg3

/-- The printed index maps, decided over the five grid points: the row block of the left operand moves with the
    output's, the weights' block is always block (0, 0), and the output's row block is one of the five. -/
theorem idx0 : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 ∧ win0_2.index t (0 : Fin 2) ≤ 4 :=
  (by decide +kernel : ∀ t : Fin grid0.N, _)

/-- Every row block is some grid point's. -/
theorem onto0 : ∀ q : Fin 5, ∃ t : Fin cfg0.N, win0_2.index t = ![q.val, 0] :=
  (by decide +kernel : ∀ q : Fin 5, ∃ t : Fin grid0.N, win0_2.index t = ![q.val, 0])

/-- What grid point `t` writes back is its block of the whole product: row `r` of the block is row
    `2000 · t + r` of the left array, and the sum over `k` is the same sum. -/
theorem flushed0 (c : Dev nD) (t : Fin cfg0.N) :
    (dat0 V c).flushed 2 t = ((cfg0.win 2).blk t).view.read (Elt Ideal) (Cert.Spec.matProd (lhsArr V c) (rhsArr V c)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  rw [pay0_eq]
  obtain ⟨e0, e1, e2, e3, e4, e5⟩ := idx0 t
  funext j
  refine (blockProd_apply (iblk0 V c 0 t) (iblk0 V c 1 t) j).trans ?_
  show _ = ∑ k : Fin 128, lhsArr V c (Cert.Spec.rowAt (((cfg0.win 2).blk t).view.emb j) k) * rhsArr V c (Cert.Spec.colAt (((cfg0.win 2).blk t).view.emb j) k)
  refine Finset.sum_congr rfl fun k _ => ?_
  have h0 : ((cfg0.win 0).blk t).view.emb (lrow j k) = Cert.Spec.rowAt (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have h1 : ((cfg0.win 1).blk t).view.emb (rcol j k) = Cert.Spec.colAt (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  show lhsArr V c (((cfg0.win 0).blk t).view.emb (lrow j k)) * rhsArr V c (((cfg0.win 1).blk t).view.emb (rcol j k)) = _
  rw [h0, h1]

/-- An index of the output array is in point `t`'s block iff each coordinate is in the block's range on its axis. -/
theorem mem_blk0 (t : Fin cfg0.N) (i : S10000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v33).slice (win0_2.rect t)).set ↔ _
  rw [View.set_slice_whole, Rect.mem_set_unit]
  exact Iff.rfl

/-- The five row blocks tile the array: row `r` is in block `r / 2000`. -/
theorem cover0 (i : S10000x128.Idx) : ∃ t : Fin cfg0.N, (cfg0.win 2).flush t = true ∧ i ∈ ((cfg0.win 2).blk t).view.set := by
  have hi0 : (i 0).val < 10000 := (i 0).isLt
  have hi1 : (i 1).val < 128 := (i 1).isLt
  obtain ⟨t, ht⟩ := onto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the region, its output array is the whole product of the two arrays it was entered with. -/
theorem arr0 (c : Dev nD) : (dat0 V c).arrAt 2 cfg0.N = Cert.Spec.matProd (lhsArr V c) (rhsArr V c) :=
  (dat0 V c).arrAt_eq_of_cover 2 _ (fun t _ => flushed0 V c t) cover0

end Cert.KernelIdeal.MatmulRegion0

end
-- ==== Proof.MatmulRegion2.lean ====
import proofs.«113079_j32925219291716_1_alg».proof.Proof.MatmulBlock

set_option maxRecDepth 16384

noncomputable section

namespace Cert.KernelIdeal.MatmulRegion2

open Cert.KernelIdeal Cert.KernelIdeal.Gen Cert.KernelIdeal.MatmulBlock Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The two arrays the region reads, as it finds them, at their literal types. -/
abbrev lhsArr (c : Dev nD) : S10000x128.Idx → Elt Ideal .f32 := V c main_v48
abbrev rhsArr (c : Dev nD) : S128x128.Idx → Elt Ideal .f32 := V c main_arg5

/-- The printed index maps, decided over the five grid points: the row block of the left operand moves with the
    output's, the weights' block is always block (0, 0), and the output's row block is one of the five. -/
theorem idx2 : ∀ t : Fin cfg2.N, win2_0.index t (0 : Fin 2) = win2_2.index t (0 : Fin 2) ∧ win2_0.index t (1 : Fin 2) = 0
    ∧ win2_1.index t (0 : Fin 2) = 0 ∧ win2_1.index t (1 : Fin 2) = 0 ∧ win2_2.index t (1 : Fin 2) = 0 ∧ win2_2.index t (0 : Fin 2) ≤ 4 :=
  (by decide +kernel : ∀ t : Fin grid2.N, _)

/-- Every row block is some grid point's. -/
theorem onto2 : ∀ q : Fin 5, ∃ t : Fin cfg2.N, win2_2.index t = ![q.val, 0] :=
  (by decide +kernel : ∀ q : Fin 5, ∃ t : Fin grid2.N, win2_2.index t = ![q.val, 0])

/-- What grid point `t` writes back is its block of the whole product: row `r` of the block is row
    `2000 · t + r` of the left array, and the sum over `k` is the same sum. -/
theorem flushed2 (c : Dev nD) (t : Fin cfg2.N) :
    (dat2 V c).flushed 2 t = ((cfg2.win 2).blk t).view.read (Elt Ideal) (Cert.Spec.matProd (lhsArr V c) (rhsArr V c)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x128) hz]
  rw [pay2_eq]
  obtain ⟨e0, e1, e2, e3, e4, e5⟩ := idx2 t
  funext j
  refine (blockProd_apply (iblk2 V c 0 t) (iblk2 V c 1 t) j).trans ?_
  show _ = ∑ k : Fin 128, lhsArr V c (Cert.Spec.rowAt (((cfg2.win 2).blk t).view.emb j) k) * rhsArr V c (Cert.Spec.colAt (((cfg2.win 2).blk t).view.emb j) k)
  refine Finset.sum_congr rfl fun k _ => ?_
  have h0 : ((cfg2.win 0).blk t).view.emb (lrow j k) = Cert.Spec.rowAt (((cfg2.win 2).blk t).view.emb j) k := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  have h1 : ((cfg2.win 1).blk t).view.emb (rcol j k) = Cert.Spec.colAt (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  show lhsArr V c (((cfg2.win 0).blk t).view.emb (lrow j k)) * rhsArr V c (((cfg2.win 1).blk t).view.emb (rcol j k)) = _
  rw [h0, h1]

/-- An index of the output array is in point `t`'s block iff each coordinate is in the block's range on its axis. -/
theorem mem_blk2 (t : Fin cfg2.N) (i : S10000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v49).slice (win2_2.rect t)).set ↔ _
  rw [View.set_slice_whole, Rect.mem_set_unit]
  exact Iff.rfl

/-- The five row blocks tile the array: row `r` is in block `r / 2000`. -/
theorem cover2 (i : S10000x128.Idx) : ∃ t : Fin cfg2.N, (cfg2.win 2).flush t = true ∧ i ∈ ((cfg2.win 2).blk t).view.set := by
  have hi0 : (i 0).val < 10000 := (i 0).isLt
  have hi1 : (i 1).val < 128 := (i 1).isLt
  obtain ⟨t, ht⟩ := onto2 ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- After the region, its output array is the whole product of the two arrays it was entered with. -/
theorem arr2 (c : Dev nD) : (dat2 V c).arrAt 2 cfg2.N = Cert.Spec.matProd (lhsArr V c) (rhsArr V c) :=
  (dat2 V c).arrAt_eq_of_cover 2 _ (fun t _ => flushed2 V c t) cover2

end Cert.KernelIdeal.MatmulRegion2

end
-- ==== Proof.BiasBlock.lean ====
/-
  The body of a bias-and-clamp region, read at an index. The body loads a [2000, 128] block and the [1, 128] bias row,
  broadcasts the row down the block's rows, adds, and takes the maximum with zero. Read at (r, c) that is
  max (block (r, c) + row (0, c)) 0 on the extended reals.
-/
import proofs.«113079_j32925219291716_1_alg».proof.Proof.Gen.KernelIdeal.Frame
import proofs.«113079_j32925219291716_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.BiasBlock

open Cert.KernelIdeal Cert.KernelIdeal.Gen Idealize.ShloMosaic Idealize.ShloMosaic.TcCoe Idealize.SL.Sem

/-- Column c of the bias row, from an index (r, c) of a block. -/
abbrev brow (j : S2000x128.Idx) : S1x128.Idx := fun a => match a with
  | ⟨0, _⟩ => ⟨0, Nat.one_pos⟩
  | ⟨1, _⟩ => ⟨(j 1).val, (j 1).isLt⟩

/-- Entry c of a bias vector as entry (0, c) of the bias row it was reshaped to. -/
abbrev rowOf (i : Cert.Spec.BiasVec.Idx) : S1x128.Idx := fun a => match a with
  | ⟨0, _⟩ => ⟨0, Nat.one_pos⟩
  | ⟨1, _⟩ => ⟨(i 0).val, (i 0).isLt⟩

/-- A [1, 128] bias row read as the vector of its entries. -/
def rowToVec (b : S1x128.Idx → EReal) : Cert.Spec.BiasVec.Idx → EReal := fun i => b (rowOf i)

theorem hz : (![0, 0] : Fin 2 → Nat) = fun _ => 0 := funext fun a => by fin_cases a <;> rfl

/-- The first bias region's payload at (r, c): the casts to the operands' own shapes change nothing, the broadcast row reads
    its column, the zero pattern is the real zero. -/
theorem pay1_apply (x0 : Vec Ideal S2000x128 .f32) (x1 : Vec Ideal S1x128 .f32) (j : S2000x128.Idx) :
    k1_pay1 (F := Ideal) x0 x1 j = max (x0 j + x1 (brow j)) 0 := by
  unfold k1_pay1
  rw [shapeCast_self, shapeCast_self]
  show max (x0 j + broadcastTo S2000x128 x1 broadcasts_S1x128_S2000x128 j) (Ideal.ofBits .f32 0x00000000#32) = _
  rw [broadcastTo_apply x1 broadcasts_S1x128_S2000x128 j (brow j) (fun a => by
    match a with
    | ⟨0, _⟩ => rfl
    | ⟨1, _⟩ => rfl), Ideal.ofBits_zero_f32]

/-- The second bias region's payload is the same function. -/
theorem pay3_apply (x0 : Vec Ideal S2000x128 .f32) (x1 : Vec Ideal S1x128 .f32) (j : S2000x128.Idx) :
    k3_pay1 (F := Ideal) x0 x1 j = max (x0 j + x1 (brow j)) 0 := pay1_apply x0 x1 j

end Cert.KernelIdeal.BiasBlock

end
-- ==== Proof.BiasRegion1.lean ====
/-
  The first bias-and-clamp region: the first layer's aggregate `main_v46` plus the bias row `main_v47`, clamped below
  at zero, 2000 rows at a grid point. A block's row r is the array's row 2000 · t + r and the bias row's block is the
  whole row, so what point t writes back is block t of the whole function; the five blocks tile the rows. After the
  region the output array is `Cert.Spec.biasRelu` of the aggregate and the row's entries, whatever the region was
  entered with (`V`).
-/
import proofs.«113079_j32925219291716_1_alg».proof.Proof.BiasBlock

set_option maxRecDepth 16384

noncomputable section

namespace Cert.KernelIdeal.BiasRegion1

open Cert.KernelIdeal Cert.KernelIdeal.Gen Cert.KernelIdeal.BiasBlock Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The aggregate and the bias row the region reads, as it finds them, at their literal types. -/
abbrev aggArr (c : Dev nD) : S10000x128.Idx → Elt Ideal .f32 := V c main_v46
abbrev rowArr (c : Dev nD) : S1x128.Idx → Elt Ideal .f32 := V c main_v47

/-- The printed index maps, decided over the five grid points: the aggregate's block moves with the output's, the
    bias row's block is always block (0, 0), and the output's row block is one of the five. -/
theorem idx1 : ∀ t : Fin cfg1.N, win1_0.index t (0 : Fin 2) = win1_2.index t (0 : Fin 2) ∧ win1_0.index t (1 : Fin 2) = win1_2.index t (1 : Fin 2)
    ∧ win1_1.index t (0 : Fin 2) = 0 ∧ win1_1.index t (1 : Fin 2) = 0 ∧ win1_2.index t (1 : Fin 2) = 0 ∧ win1_2.index t (0 : Fin 2) ≤ 4 :=
  (by decide +kernel : ∀ t : Fin grid1.N, _)

/-- Every row block is some grid point's. -/
theorem onto1 : ∀ q : Fin 5, ∃ t : Fin cfg1.N, win1_2.index t = ![q.val, 0] :=
  (by decide +kernel : ∀ q : Fin 5, ∃ t : Fin grid1.N, win1_2.index t = ![q.val, 0])

/-- What grid point `t` writes back is its block of the whole function: entry (r, c) of the block is entry
    (2000 · t + r, c) of the aggregate plus the bias of column c, clamped. -/
theorem flushed1 (c : Dev nD) (t : Fin cfg1.N) :
    (dat1 V c).flushed 2 t = ((cfg1.win 2).blk t).view.read (Elt Ideal) (Cert.Spec.biasRelu (aggArr V c) (rowToVec (rowArr V c))) := by
  show (cfg1.win 2).cut (grid1.coords t) ((dat1 V c).after 2 t) = _
  rw [after1_2]
  unfold out1_2
  rw [View.canon_unit_zero hz]
  simp only [View.ld_unit_zero (S := S2000x128) hz, View.ld_unit_zero (S := S1x128) hz]
  obtain ⟨e0, e1, e2, e3, e4, e5⟩ := idx1 t
  funext j
  refine (pay1_apply (iblk1 V c 0 t) (iblk1 V c 1 t) j).trans ?_
  show max (aggArr V c (((cfg1.win 0).blk t).view.emb j) + rowArr V c (((cfg1.win 1).blk t).view.emb (brow j))) 0
    = max (aggArr V c (((cfg1.win 2).blk t).view.emb j) + rowArr V c (rowOf (Cert.Spec.vecAt (((cfg1.win 2).blk t).view.emb j)))) 0
  have h0 : ((cfg1.win 0).blk t).view.emb j = ((cfg1.win 2).blk t).view.emb j := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (brow j) = rowOf (Cert.Spec.vecAt (((cfg1.win 2).blk t).view.emb j)) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [h0, h1]

/-- An index of the output array is in point `t`'s block iff each coordinate is in the block's range on its axis. -/
theorem mem_blk1 (t : Fin cfg1.N) (i : S10000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v48).slice (win1_2.rect t)).set ↔ _
  rw [View.set_slice_whole, Rect.mem_set_unit]
  exact Iff.rfl

/-- The five row blocks tile the array: row `r` is in block `r / 2000`. -/
theorem cover1 (i : S10000x128.Idx) : ∃ t : Fin cfg1.N, (cfg1.win 2).flush t = true ∧ i ∈ ((cfg1.win 2).blk t).view.set := by
  have hi0 : (i 0).val < 10000 := (i 0).isLt
  have hi1 : (i 1).val < 128 := (i 1).isLt
  obtain ⟨t, ht⟩ := onto1 ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- After the region, its output array is the aggregate plus the bias, clamped, over the whole array. -/
theorem arr1 (c : Dev nD) : (dat1 V c).arrAt 2 cfg1.N = Cert.Spec.biasRelu (aggArr V c) (rowToVec (rowArr V c)) :=
  (dat1 V c).arrAt_eq_of_cover 2 _ (fun t _ => flushed1 V c t) cover1

end Cert.KernelIdeal.BiasRegion1

end
-- ==== Proof.BiasRegion3.lean ====
import proofs.«113079_j32925219291716_1_alg».proof.Proof.BiasBlock

set_option maxRecDepth 16384

noncomputable section

namespace Cert.KernelIdeal.BiasRegion3

open Cert.KernelIdeal Cert.KernelIdeal.Gen Cert.KernelIdeal.BiasBlock Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The aggregate and the bias row the region reads, as it finds them, at their literal types. -/
abbrev aggArr (c : Dev nD) : S10000x128.Idx → Elt Ideal .f32 := V c main_v62
abbrev rowArr (c : Dev nD) : S1x128.Idx → Elt Ideal .f32 := V c main_v63

/-- The printed index maps, decided over the five grid points: the aggregate's block moves with the output's, the
    bias row's block is always block (0, 0), and the output's row block is one of the five. -/
theorem idx3 : ∀ t : Fin cfg3.N, win3_0.index t (0 : Fin 2) = win3_2.index t (0 : Fin 2) ∧ win3_0.index t (1 : Fin 2) = win3_2.index t (1 : Fin 2)
    ∧ win3_1.index t (0 : Fin 2) = 0 ∧ win3_1.index t (1 : Fin 2) = 0 ∧ win3_2.index t (1 : Fin 2) = 0 ∧ win3_2.index t (0 : Fin 2) ≤ 4 :=
  (by decide +kernel : ∀ t : Fin grid3.N, _)

/-- Every row block is some grid point's. -/
theorem onto3 : ∀ q : Fin 5, ∃ t : Fin cfg3.N, win3_2.index t = ![q.val, 0] :=
  (by decide +kernel : ∀ q : Fin 5, ∃ t : Fin grid3.N, win3_2.index t = ![q.val, 0])

/-- What grid point `t` writes back is its block of the whole function: entry (r, c) of the block is entry
    (2000 · t + r, c) of the aggregate plus the bias of column c, clamped. -/
theorem flushed3 (c : Dev nD) (t : Fin cfg3.N) :
    (dat3 V c).flushed 2 t = ((cfg3.win 2).blk t).view.read (Elt Ideal) (Cert.Spec.biasRelu (aggArr V c) (rowToVec (rowArr V c))) := by
  show (cfg3.win 2).cut (grid3.coords t) ((dat3 V c).after 2 t) = _
  rw [after3_2]
  unfold out3_2
  rw [View.canon_unit_zero hz]
  simp only [View.ld_unit_zero (S := S2000x128) hz, View.ld_unit_zero (S := S1x128) hz]
  obtain ⟨e0, e1, e2, e3, e4, e5⟩ := idx3 t
  funext j
  refine (pay3_apply (iblk3 V c 0 t) (iblk3 V c 1 t) j).trans ?_
  show max (aggArr V c (((cfg3.win 0).blk t).view.emb j) + rowArr V c (((cfg3.win 1).blk t).view.emb (brow j))) 0
    = max (aggArr V c (((cfg3.win 2).blk t).view.emb j) + rowArr V c (rowOf (Cert.Spec.vecAt (((cfg3.win 2).blk t).view.emb j)))) 0
  have h0 : ((cfg3.win 0).blk t).view.emb j = ((cfg3.win 2).blk t).view.emb j := by
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (brow j) = rowOf (Cert.Spec.vecAt (((cfg3.win 2).blk t).view.emb j)) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  rw [h0, h1]

/-- An index of the output array is in point `t`'s block iff each coordinate is in the block's range on its axis. -/
theorem mem_blk3 (t : Fin cfg3.N) (i : S10000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v64).slice (win3_2.rect t)).set ↔ _
  rw [View.set_slice_whole, Rect.mem_set_unit]
  exact Iff.rfl

/-- The five row blocks tile the array: row `r` is in block `r / 2000`. -/
theorem cover3 (i : S10000x128.Idx) : ∃ t : Fin cfg3.N, (cfg3.win 2).flush t = true ∧ i ∈ ((cfg3.win 2).blk t).view.set := by
  have hi0 : (i 0).val < 10000 := (i 0).isLt
  have hi1 : (i 1).val < 128 := (i 1).isLt
  obtain ⟨t, ht⟩ := onto3 ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- After the region, its output array is the aggregate plus the bias, clamped, over the whole array. -/
theorem arr3 (c : Dev nD) : (dat3 V c).arrAt 2 cfg3.N = Cert.Spec.biasRelu (aggArr V c) (rowToVec (rowArr V c)) :=
  (dat3 V c).arrAt_eq_of_cover 2 _ (fun t _ => flushed3 V c t) cover3

end Cert.KernelIdeal.BiasRegion3

end
-- ==== Proof.RefSide.lean ====
/-
  The reference, read as two applications of one layer. A layer is  relu (A · (h · W) + b): the product h · W is one
  `dot_general`; the normalized aggregation A · is a gather of the product's rows by source node, a scaling by the
  edge's norm, and a scatter-add by target node, with the node lists and the norms computed from the edge list and the
  edge weights alone; the bias is broadcast over the rows, added, and the maximum with zero taken.
  `agg` names the aggregation as ONE function of the feature matrix it is applied to. The reference computes the node
  lists and the norms once per layer, by the same operations, so both layers' scatter results are `agg` of their product.
  The dense parts are read index by index: the `dot_general` is `Cert.Spec.matProd`, the epilogue `Cert.Spec.biasRelu`.
-/
import proofs.«113079_j32925219291716_1_alg».proof.Proof.Gen.ReferenceIdeal.Read
import proofs.«113079_j32925219291716_1_alg».proof.Proof.Spec

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem

/-- Gather the rows of `h` by source node (a negative node index wrapped once), scale each by its edge's norm, and add
    them up by target node, from zero. -/
def aggOf (row col : (⟨S650000, .i32⟩ : BufTy).Contents (Elt Ideal)) (norm : (⟨S650000, .f32⟩ : BufTy).Contents (Elt Ideal))
    (h : (⟨S10000x128, .f32⟩ : BufTy).Contents (Elt Ideal)) : (⟨S10000x128, .f32⟩ : BufTy).Contents (Elt Ideal) :=
  Host.scatterAdd scatter_S10000x128_S650000x1_S650000x128_1_0_0_1
    (broadcastInDim S10000x128 ![] bcast_S_S10000x128 (constant (F := Ideal) S_ .f32 0x00000000#32))
    (broadcastInDim S650000x1 ![0] bcast_S650000_S650000x1_0 col)
    (mulf (broadcastInDim S650000x128 ![0, 1] bcast_S650000x1_S650000x128_0_1 (broadcastInDim S650000x1 ![0] bcast_S650000_S650000x1_0 norm))
      (Host.gather gather_S10000x128_S650000x1_S650000x128_1_0_n_n_0_1_1128 h
        (broadcastInDim S650000x1 ![0] bcast_S650000_S650000x1_0
          (select (cmpi .slt row (broadcastInDim S650000 ![] bcast_S_S650000 (constantI S_ 32 0#32)))
            (addi row (broadcastInDim S650000 ![] bcast_S_S650000 (constantI S_ 32 10000#32))) row))))

/-- The aggregation of a graph: the source list, the target list and the norms are the reference's own stages of the
    edge list `x1` and the edge weights `x2`. -/
def agg (x1 : (⟨S2x640000, .i32⟩ : BufTy).Contents (Elt Ideal)) (x2 : (⟨S640000, .f32⟩ : BufTy).Contents (Elt Ideal)) (h : (⟨S10000x128, .f32⟩ : BufTy).Contents (Elt Ideal)) : (⟨S10000x128, .f32⟩ : BufTy).Contents (Elt Ideal) :=
  aggOf (val_main_v6 (F := Ideal) x1) (val_main_v7 (F := Ideal) x1) (val_main_v33 (F := Ideal) x1 x2) h

variable (x0 : (⟨S10000x128, .f32⟩ : BufTy).Contents (Elt Ideal)) (x1 : (⟨S2x640000, .i32⟩ : BufTy).Contents (Elt Ideal)) (x2 : (⟨S640000, .f32⟩ : BufTy).Contents (Elt Ideal))
  (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))

/-- The first layer's scatter result is the aggregation of the first product. -/
theorem v46_eq : val_main_v46 (F := Ideal) x0 x1 x2 x3 = agg x1 x2 (val_main_v0 (F := Ideal) x0 x3) := rfl

/-- The second layer recomputes the node lists and the norms by the same operations: its scatter result is the same
    aggregation, of the second product. -/
theorem v97_eq : val_main_v97 (F := Ideal) x0 x1 x2 x3 x4 x5 = agg x1 x2 (val_main_v51 (F := Ideal) x0 x1 x2 x3 x4 x5) := rfl

/-- A `dot_general` of a node matrix with a weight matrix is the matrix product, index by index. -/
theorem v0_eq : val_main_v0 (F := Ideal) x0 x3 = Cert.Spec.matProd x0 x3 := by
  funext i
  rw [val_main_v0_apply]
  rfl
theorem v51_eq : val_main_v51 (F := Ideal) x0 x1 x2 x3 x4 x5 = Cert.Spec.matProd (val_main_v50 (F := Ideal) x0 x1 x2 x3 x4) x5 := by
  funext i
  rw [val_main_v51_apply]
  rfl

/-- The bias broadcast over the rows, added, and the maximum with the zero splat: `biasRelu`, index by index. -/
theorem v50_eq : val_main_v50 (F := Ideal) x0 x1 x2 x3 x4 = Cert.Spec.biasRelu (val_main_v46 (F := Ideal) x0 x1 x2 x3) x4 := by
  funext i
  rw [val_main_v50_apply, val_main_v49_apply, val_main_v48_apply, val_main_v47_apply, val_main_call1_v0_apply, val_main_call1_cst_apply]
  have e : idx_main_v47 (idx_main_v48 i) = Cert.Spec.vecAt i := funext fun a => Fin.ext (by
    match a with
    | ⟨0, _⟩ => rfl)
  rw [e]
  show max (val_main_v46 (F := Ideal) x0 x1 x2 x3 i + x4 (Cert.Spec.vecAt i)) (Ideal.ofBits .f32 0x00000000#32) = max (val_main_v46 (F := Ideal) x0 x1 x2 x3 i + x4 (Cert.Spec.vecAt i)) 0
  rw [Ideal.ofBits_zero_f32]
theorem v101_eq : val_main_v101 (F := Ideal) x0 x1 x2 x3 x4 x5 x6 = Cert.Spec.biasRelu (val_main_v97 (F := Ideal) x0 x1 x2 x3 x4 x5) x6 := by
  funext i
  rw [val_main_v101_apply, val_main_v100_apply, val_main_v99_apply, val_main_v98_apply, val_main_call3_v0_apply, val_main_call3_cst_apply]
  have e : idx_main_v98 (idx_main_v99 i) = Cert.Spec.vecAt i := funext fun a => Fin.ext (by
    match a with
    | ⟨0, _⟩ => rfl)
  rw [e]
  show max (val_main_v97 (F := Ideal) x0 x1 x2 x3 x4 x5 i + x6 (Cert.Spec.vecAt i)) (Ideal.ofBits .f32 0x00000000#32) = max (val_main_v97 (F := Ideal) x0 x1 x2 x3 x4 x5 i + x6 (Cert.Spec.vecAt i)) 0
  rw [Ideal.ofBits_zero_f32]

/-- The reference's result: two layers, each the aggregation of a matrix product, plus a bias, clamped. -/
theorem result_eq : val_main_v101 (F := Ideal) x0 x1 x2 x3 x4 x5 x6
    = Cert.Spec.biasRelu (agg x1 x2 (Cert.Spec.matProd (Cert.Spec.biasRelu (agg x1 x2 (Cert.Spec.matProd x0 x3)) x4) x5)) x6 := by
  rw [v101_eq, v97_eq, v51_eq, v50_eq, v46_eq, v0_eq]

end Cert.ReferenceIdeal.RefValue

end
-- ==== Proof.Thread.lean ====
/-
  The kernel program's buffers, boundary by boundary, as functions of the launch arguments (at the extended reals).
  @main is: host operations that build the source list, the target list and the edge norms; the first product region;
  host operations that aggregate the product and reshape the first bias; the first bias-and-clamp region; the second
  product region; the same aggregation of the second product and the reshape of the second bias; the second
  bias-and-clamp region. At each boundary the buffers a later item reads are named: the node lists and the norms are the
  reference's own stages of the edge list and the edge weights (the host operations are the same, so this is
  definitional); a region's output array is the whole-array function its blocks tile (the region modules); a buffer
  that an item neither writes nor stages keeps its contents. The last boundary's result array is then two layers of
  `biasRelu (agg (matProd · ·)) ·`, which is what the reference's result reads as.
-/
import proofs.«113079_j32925219291716_1_alg».proof.Proof.Gen.KernelIdeal.Frame
import proofs.«113079_j32925219291716_1_alg».proof.Proof.MatmulRegion0
import proofs.«113079_j32925219291716_1_alg».proof.Proof.MatmulRegion2
import proofs.«113079_j32925219291716_1_alg».proof.Proof.BiasRegion1
import proofs.«113079_j32925219291716_1_alg».proof.Proof.BiasRegion3
import proofs.«113079_j32925219291716_1_alg».proof.Proof.RefSide
import Idealize.ShloMosaic.Lib.StableHlo.Run

set_option maxRecDepth 16384

noncomputable section

namespace Cert.KernelIdeal.Thread

open Cert.KernelIdeal Cert.KernelIdeal.Gen Idealize.ShloMosaic Idealize.ShloMosaic.TcCoe Idealize.SL.Sem Idealize.ShloMosaic.StableHlo
open Cert.KernelIdeal.BiasBlock (rowToVec rowOf)

variable (m : (ℓ : Loc nD τ sig) → Buf (Elt Ideal) ℓ) (ρ : Dev nD → PrngReg) (c : Dev nD)

/-! ## The launch arguments and the values built from them -/

abbrev a0 : (⟨Cert.ReferenceIdeal.S10000x128, .f32⟩ : BufTy).Contents (Elt Ideal) := m ((c : Thread nD τ).loc main_arg0)
abbrev a1 : (⟨Cert.ReferenceIdeal.S2x640000, .i32⟩ : BufTy).Contents (Elt Ideal) := m ((c : Thread nD τ).loc main_arg1)
abbrev a2 : (⟨Cert.ReferenceIdeal.S640000, .f32⟩ : BufTy).Contents (Elt Ideal) := m ((c : Thread nD τ).loc main_arg2)
abbrev a3 : (⟨Cert.ReferenceIdeal.S128x128, .f32⟩ : BufTy).Contents (Elt Ideal) := m ((c : Thread nD τ).loc main_arg3)
abbrev a4 : (⟨Cert.ReferenceIdeal.S128, .f32⟩ : BufTy).Contents (Elt Ideal) := m ((c : Thread nD τ).loc main_arg4)
abbrev a5 : (⟨Cert.ReferenceIdeal.S128x128, .f32⟩ : BufTy).Contents (Elt Ideal) := m ((c : Thread nD τ).loc main_arg5)
abbrev a6 : (⟨Cert.ReferenceIdeal.S128, .f32⟩ : BufTy).Contents (Elt Ideal) := m ((c : Thread nD τ).loc main_arg6)

/-- Source nodes, target nodes and norms of the edges with the self loops appended. -/
abbrev rowV : (⟨Cert.ReferenceIdeal.S650000, .i32⟩ : BufTy).Contents (Elt Ideal) := Cert.ReferenceIdeal.Read.val_main_v6 (F := Ideal) (a1 m c)
abbrev colV : (⟨Cert.ReferenceIdeal.S650000, .i32⟩ : BufTy).Contents (Elt Ideal) := Cert.ReferenceIdeal.Read.val_main_v7 (F := Ideal) (a1 m c)
abbrev normV : (⟨Cert.ReferenceIdeal.S650000, .f32⟩ : BufTy).Contents (Elt Ideal) := Cert.ReferenceIdeal.Read.val_main_v33 (F := Ideal) (a1 m c) (a2 m c)

/-- The two layers, stage by stage. -/
abbrev prod1 : (⟨Cert.ReferenceIdeal.S10000x128, .f32⟩ : BufTy).Contents (Elt Ideal) := Cert.Spec.matProd (a0 m c) (a3 m c)
abbrev agg1 : (⟨Cert.ReferenceIdeal.S10000x128, .f32⟩ : BufTy).Contents (Elt Ideal) := Cert.ReferenceIdeal.RefValue.agg (a1 m c) (a2 m c) (prod1 m c)
abbrev act1 : (⟨Cert.ReferenceIdeal.S10000x128, .f32⟩ : BufTy).Contents (Elt Ideal) := Cert.Spec.biasRelu (agg1 m c) (a4 m c)
abbrev prod2 : (⟨Cert.ReferenceIdeal.S10000x128, .f32⟩ : BufTy).Contents (Elt Ideal) := Cert.Spec.matProd (act1 m c) (a5 m c)
abbrev agg2 : (⟨Cert.ReferenceIdeal.S10000x128, .f32⟩ : BufTy).Contents (Elt Ideal) := Cert.ReferenceIdeal.RefValue.agg (a1 m c) (a2 m c) (prod2 m c)
abbrev act2 : (⟨Cert.ReferenceIdeal.S10000x128, .f32⟩ : BufTy).Contents (Elt Ideal) := Cert.Spec.biasRelu (agg2 m c) (a6 m c)

/-! ## The aggregation's host operations are the reference's -/

/-- The kernel program's gather, scaling and scatter-add over given node lists and norms is the reference's `aggOf`:
    the same operations over the same shapes. -/
theorem aggK_eq (row col : IVec S650000 32) (norm : FVec Ideal S650000 .f32) (h : FVec Ideal S10000x128 .f32) :
    Host.scatterAdd scatter_S10000x128_S650000x1_S650000x128_1_0_0_1
      (broadcastInDim S10000x128 ![] bcast_S_S10000x128 (constant (F := Ideal) S_ .f32 0x00000000#32))
      (broadcastInDim S650000x1 ![0] bcast_S650000_S650000x1_0 col)
      (mulf (broadcastInDim S650000x128 ![0, 1] bcast_S650000x1_S650000x128_0_1 (broadcastInDim S650000x1 ![0] bcast_S650000_S650000x1_0 norm))
        (Host.gather gather_S10000x128_S650000x1_S650000x128_1_0_n_n_0_1_1128 h
          (broadcastInDim S650000x1 ![0] bcast_S650000_S650000x1_0
            (select (cmpi .slt row (broadcastInDim S650000 ![] bcast_S_S650000 (constantI S_ 32 0#32)))
              (addi row (broadcastInDim S650000 ![] bcast_S_S650000 (constantI S_ 32 10000#32))) row))))
      = Cert.ReferenceIdeal.RefValue.aggOf row col norm h := rfl

/-- A bias vector reshaped to a row and read back as a vector is itself. -/
theorem rowToVec_reshape (b : FVec Ideal S128 .f32) : rowToVec (shapeCast S1x128 b shapeCasts_S128_S1x128) = b := by
  funext i
  show shapeCast S1x128 b shapeCasts_S128_S1x128 (rowOf i) = b i
  exact shapeCast_apply b shapeCasts_S128_S1x128 (rowOf i) i
    (by rewrite [Shape.rowMajor_val_one, Shape.rowMajor_val_two]; show (i 0).val = 0 * 128 + (i 0).val; omega)

/-! ## Region 0's entry: after the host operations that build the node lists and the norms -/

theorem arg0_3 : W3 m ρ c (Proc.devRef .tc main_arg0) = a0 m c := by
  dsimp only [W3, W2, W1, hostOps0, hostOps0_1, hostOps0_2]; after_results
theorem arg3_3 : W3 m ρ c (Proc.devRef .tc main_arg3) = a3 m c := by
  dsimp only [W3, W2, W1, hostOps0, hostOps0_1, hostOps0_2]; after_results
theorem arg4_3 : W3 m ρ c (Proc.devRef .tc main_arg4) = a4 m c := by
  dsimp only [W3, W2, W1, hostOps0, hostOps0_1, hostOps0_2]; after_results
theorem arg5_3 : W3 m ρ c (Proc.devRef .tc main_arg5) = a5 m c := by
  dsimp only [W3, W2, W1, hostOps0, hostOps0_1, hostOps0_2]; after_results
theorem arg6_3 : W3 m ρ c (Proc.devRef .tc main_arg6) = a6 m c := by
  dsimp only [W3, W2, W1, hostOps0, hostOps0_1, hostOps0_2]; after_results
theorem row_3 : W3 m ρ c (Proc.devRef .tc main_v5) = rowV m c := by
  dsimp only [W3, W2, W1, hostOps0, hostOps0_1, hostOps0_2]; after_results; rfl
theorem col_3 : W3 m ρ c (Proc.devRef .tc main_v6) = colV m c := by
  dsimp only [W3, W2, W1, hostOps0, hostOps0_1, hostOps0_2]; after_results; rfl

/-! ### The norms, stretch by stretch

The norm of an edge is  dinv (source) · weight · dinv (target)  with  dinv = where (deg > 0, rsqrt deg, 0)  and  deg  the
scatter-add of the weights (ones on the self loops) by target node. The first stretch builds the weights, the sign mask
of the degree, its inverse square root and the zero vector; the second is the one select; the third gathers and
multiplies. Each is the reference's stage of the same name. -/

theorem row_1 : W1 m ρ c (Proc.devRef .tc main_v5) = rowV m c := by
  dsimp only [W1, hostOps0]; after_results; rfl
theorem col_1 : W1 m ρ c (Proc.devRef .tc main_v6) = colV m c := by
  dsimp only [W1, hostOps0]; after_results; rfl
theorem ew_1 : W1 m ρ c (Proc.devRef .tc main_v8) = Cert.ReferenceIdeal.Read.val_main_v9 (F := Ideal) (a2 m c) := by
  dsimp only [W1, hostOps0]; after_results; rfl
theorem pos_1 : W1 m ρ c (Proc.devRef .tc main_v13) = Cert.ReferenceIdeal.Read.val_main_v14 (F := Ideal) (a1 m c) (a2 m c) := by
  dsimp only [W1, hostOps0]; after_results; rfl
theorem rs_1 : W1 m ρ c (Proc.devRef .tc main_v14) = Cert.ReferenceIdeal.Read.val_main_v15 (F := Ideal) (a1 m c) (a2 m c) := by
  dsimp only [W1, hostOps0]; after_results; rfl
theorem zero_1 : W1 m ρ c (Proc.devRef .tc main_v15) = Cert.ReferenceIdeal.Read.val_main_v16 (F := Ideal) := by
  dsimp only [W1, hostOps0]; after_results; rfl

/-- The one operation of the second stretch: the select of the called `where`, over any contents. -/
theorem where_2 (X : Valuation τ sig (Elt Ideal)) :
    StableHlo.after hostOps0_1 X (Proc.devRef .tc main_v16)
      = select (X (Proc.devRef .tc main_v13)) (X (Proc.devRef .tc main_v14)) (X (Proc.devRef .tc main_v15)) := by
  dsimp only [hostOps0_1]; after_results
  rfl
theorem dinv_2 : W2 m ρ c (Proc.devRef .tc main_v16) = Cert.ReferenceIdeal.Read.val_main_v17 (F := Ideal) (a1 m c) (a2 m c) := by
  show StableHlo.after hostOps0_1 (W1 m ρ c) (Proc.devRef .tc main_v16) = _
  rw [where_2, pos_1, rs_1, zero_1]
  rfl
theorem row_2 : W2 m ρ c (Proc.devRef .tc main_v5) = rowV m c := by
  show StableHlo.after hostOps0_1 (W1 m ρ c) (Proc.devRef .tc main_v5) = _
  have e := row_1 m ρ c
  generalize W1 m ρ c = X at e ⊢
  dsimp only [hostOps0_1]; after_results
  exact e
theorem col_2 : W2 m ρ c (Proc.devRef .tc main_v6) = colV m c := by
  show StableHlo.after hostOps0_1 (W1 m ρ c) (Proc.devRef .tc main_v6) = _
  have e := col_1 m ρ c
  generalize W1 m ρ c = X at e ⊢
  dsimp only [hostOps0_1]; after_results
  exact e
theorem ew_2 : W2 m ρ c (Proc.devRef .tc main_v8) = Cert.ReferenceIdeal.Read.val_main_v9 (F := Ideal) (a2 m c) := by
  show StableHlo.after hostOps0_1 (W1 m ρ c) (Proc.devRef .tc main_v8) = _
  have e := ew_1 m ρ c
  generalize W1 m ρ c = X at e ⊢
  dsimp only [hostOps0_1]; after_results
  exact e

theorem norm_3 : W3 m ρ c (Proc.devRef .tc main_v32) = normV m c := by
  show StableHlo.after hostOps0_2 (W2 m ρ c) (Proc.devRef .tc main_v32) = _
  have e16 := dinv_2 m ρ c
  have e5 := row_2 m ρ c
  have e6 := col_2 m ρ c
  have e8 := ew_2 m ρ c
  generalize W2 m ρ c = X at e16 e5 e6 e8 ⊢
  dsimp only [hostOps0_2]; after_results_simp
  rw [e16, e5, e6, e8]
  rfl

/-! ## Region 0's exit: the first product; the other buffers as entered -/

theorem prod_4 : W4 m ρ c (Proc.devRef .tc main_v33) = prod1 m c :=
  (W4_arr m ρ c 2).trans ((Cert.KernelIdeal.MatmulRegion0.arr0 (V3 m ρ) c).trans (by
    show Cert.Spec.matProd (W3 m ρ c (Proc.devRef .tc main_arg0)) (W3 m ρ c (Proc.devRef .tc main_arg3)) = _
    rw [arg0_3, arg3_3]))
theorem arg4_4 : W4 m ρ c (Proc.devRef .tc main_arg4) = a4 m c :=
  (W4_of_ne m ρ c main_arg4 (by decide)).trans (arg4_3 m ρ c)
theorem arg5_4 : W4 m ρ c (Proc.devRef .tc main_arg5) = a5 m c :=
  (W4_of_ne m ρ c main_arg5 (by decide)).trans (arg5_3 m ρ c)
theorem arg6_4 : W4 m ρ c (Proc.devRef .tc main_arg6) = a6 m c :=
  (W4_of_ne m ρ c main_arg6 (by decide)).trans (arg6_3 m ρ c)
theorem row_4 : W4 m ρ c (Proc.devRef .tc main_v5) = rowV m c :=
  (W4_of_ne m ρ c main_v5 (by decide)).trans (row_3 m ρ c)
theorem col_4 : W4 m ρ c (Proc.devRef .tc main_v6) = colV m c :=
  (W4_of_ne m ρ c main_v6 (by decide)).trans (col_3 m ρ c)
theorem norm_4 : W4 m ρ c (Proc.devRef .tc main_v32) = normV m c :=
  (W4_of_ne m ρ c main_v32 (by decide)).trans (norm_3 m ρ c)

/-! ## Region 1's entry: the first aggregate and the first bias as a row -/

theorem agg_5 : W5 m ρ c (Proc.devRef .tc main_v46) = agg1 m c := by
  dsimp only [W5, hostOps1]; after_results_simp
  rw [col_4, norm_4, prod_4, row_4]
  exact aggK_eq _ _ _ _
theorem bias_5 : rowToVec (W5 m ρ c (Proc.devRef .tc main_v47)) = a4 m c := by
  have h : W5 m ρ c (Proc.devRef .tc main_v47) = shapeCast S1x128 (W4 m ρ c (Proc.devRef .tc main_arg4)) shapeCasts_S128_S1x128 := by
    dsimp only [W5, hostOps1]; after_results; rfl
  rw [h, arg4_4]
  exact rowToVec_reshape _
theorem arg5_5 : W5 m ρ c (Proc.devRef .tc main_arg5) = a5 m c := by
  dsimp only [W5, hostOps1]; after_results; exact arg5_4 m ρ c
theorem arg6_5 : W5 m ρ c (Proc.devRef .tc main_arg6) = a6 m c := by
  dsimp only [W5, hostOps1]; after_results; exact arg6_4 m ρ c
theorem row_5 : W5 m ρ c (Proc.devRef .tc main_v5) = rowV m c := by
  dsimp only [W5, hostOps1]; after_results; exact row_4 m ρ c
theorem col_5 : W5 m ρ c (Proc.devRef .tc main_v6) = colV m c := by
  dsimp only [W5, hostOps1]; after_results; exact col_4 m ρ c
theorem norm_5 : W5 m ρ c (Proc.devRef .tc main_v32) = normV m c := by
  dsimp only [W5, hostOps1]; after_results; exact norm_4 m ρ c

/-! ## Region 1's exit: the first layer's activations -/

theorem act_6 : W6 m ρ c (Proc.devRef .tc main_v48) = act1 m c :=
  (W6_arr m ρ c 2).trans ((Cert.KernelIdeal.BiasRegion1.arr1 (V5 m ρ) c).trans (by
    show Cert.Spec.biasRelu (W5 m ρ c (Proc.devRef .tc main_v46)) (rowToVec (W5 m ρ c (Proc.devRef .tc main_v47))) = _
    rw [agg_5, bias_5]))
theorem arg5_6 : W6 m ρ c (Proc.devRef .tc main_arg5) = a5 m c :=
  (W6_of_ne m ρ c main_arg5 (by decide)).trans (arg5_5 m ρ c)
theorem arg6_6 : W6 m ρ c (Proc.devRef .tc main_arg6) = a6 m c :=
  (W6_of_ne m ρ c main_arg6 (by decide)).trans (arg6_5 m ρ c)
theorem row_6 : W6 m ρ c (Proc.devRef .tc main_v5) = rowV m c :=
  (W6_of_ne m ρ c main_v5 (by decide)).trans (row_5 m ρ c)
theorem col_6 : W6 m ρ c (Proc.devRef .tc main_v6) = colV m c :=
  (W6_of_ne m ρ c main_v6 (by decide)).trans (col_5 m ρ c)
theorem norm_6 : W6 m ρ c (Proc.devRef .tc main_v32) = normV m c :=
  (W6_of_ne m ρ c main_v32 (by decide)).trans (norm_5 m ρ c)

/-! ## Region 2's exit: the second product -/

theorem prod_7 : W7 m ρ c (Proc.devRef .tc main_v49) = prod2 m c :=
  (W7_arr m ρ c 2).trans ((Cert.KernelIdeal.MatmulRegion2.arr2 (V6 m ρ) c).trans (by
    show Cert.Spec.matProd (W6 m ρ c (Proc.devRef .tc main_v48)) (W6 m ρ c (Proc.devRef .tc main_arg5)) = _
    rw [act_6, arg5_6]))
theorem arg6_7 : W7 m ρ c (Proc.devRef .tc main_arg6) = a6 m c :=
  (W7_of_ne m ρ c main_arg6 (by decide)).trans (arg6_6 m ρ c)
theorem row_7 : W7 m ρ c (Proc.devRef .tc main_v5) = rowV m c :=
  (W7_of_ne m ρ c main_v5 (by decide)).trans (row_6 m ρ c)
theorem col_7 : W7 m ρ c (Proc.devRef .tc main_v6) = colV m c :=
  (W7_of_ne m ρ c main_v6 (by decide)).trans (col_6 m ρ c)
theorem norm_7 : W7 m ρ c (Proc.devRef .tc main_v32) = normV m c :=
  (W7_of_ne m ρ c main_v32 (by decide)).trans (norm_6 m ρ c)

/-! ## Region 3's entry: the second aggregate and the second bias as a row -/

theorem agg_8 : W8 m ρ c (Proc.devRef .tc main_v62) = agg2 m c := by
  dsimp only [W8, hostOps3]; after_results_simp
  rw [col_7, norm_7, prod_7, row_7]
  exact aggK_eq _ _ _ _
theorem bias_8 : rowToVec (W8 m ρ c (Proc.devRef .tc main_v63)) = a6 m c := by
  have h : W8 m ρ c (Proc.devRef .tc main_v63) = shapeCast S1x128 (W7 m ρ c (Proc.devRef .tc main_arg6)) shapeCasts_S128_S1x128 := by
    dsimp only [W8, hostOps3]; after_results; rfl
  rw [h, arg6_7]
  exact rowToVec_reshape _

/-! ## Region 3's exit: the result -/

/-- The result array at the last boundary is the second layer's activations. -/
theorem result_9 : W9 m ρ c (Proc.devRef .tc main_v64) = act2 m c :=
  (W9_arr m ρ c 2).trans ((Cert.KernelIdeal.BiasRegion3.arr3 (V8 m ρ) c).trans (by
    show Cert.Spec.biasRelu (W8 m ρ c (Proc.devRef .tc main_v62)) (rowToVec (W8 m ρ c (Proc.devRef .tc main_v63))) = _
    rw [agg_8, bias_8]))

end Cert.KernelIdeal.Thread

end
-- ==== Proof.lean ====
/-
  The certificate of a two-layer graph convolution: a Pallas program against its jnp reference, over the extended reals.

  A layer is  relu (A · (h · W) + b).  The kernel program computes the product h · W in a pallas_call, 2000 rows at a grid
  point, from bf16-rounded operands into an f32 accumulator; at the extended reals rounding is the identity and the
  block products are the rows of the one product the reference's `dot_general` computes (`Cert.Spec.matProd`). The
  normalized aggregation A · — a gather by source node, a scaling by the edge's norm, a scatter-add by target node —
  is the same host operations in both programs (`Cert.ReferenceIdeal.RefValue.agg`; the reference builds the node
  lists and the norms once per layer, the kernel program once). The bias and the clamp are a second pallas_call
  against the reference's broadcast, add and maximum: both are `Cert.Spec.biasRelu`. So both results are
  `biasRelu (agg (matProd (biasRelu (agg (matProd x W1)) b1) W2)) b2`. No law of the extended reals is used beyond
  0 + s = s, so the inputs' finiteness is never opened.

  The frames of the two kernel programs are the generated ones; the reference's is its generated run with the result
  dropped; the ideal pass rewrote nothing, so `preserves` is trivial.
-/
import proofs.«113079_j32925219291716_1_alg».proof.Defs
import proofs.«113079_j32925219291716_1_alg».proof.Proof.Gen.Kernel
import proofs.«113079_j32925219291716_1_alg».proof.Proof.Gen.Kernel.Frame
import proofs.«113079_j32925219291716_1_alg».proof.Proof.Gen.KernelIdeal
import proofs.«113079_j32925219291716_1_alg».proof.Proof.Gen.KernelIdeal.Frame
import proofs.«113079_j32925219291716_1_alg».proof.Proof.Gen.ReferenceIdeal
import proofs.«113079_j32925219291716_1_alg».proof.Proof.Gen.ReferenceIdeal.Run
import proofs.«113079_j32925219291716_1_alg».proof.Proof.Gen.ReferenceIdeal.Read
import proofs.«113079_j32925219291716_1_alg».proof.Proof.Gen.Pre_finite_inputs
import proofs.«113079_j32925219291716_1_alg».proof.Proof.KRun
import proofs.«113079_j32925219291716_1_alg».proof.Proof.Thread
import proofs.«113079_j32925219291716_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The kernel program's run with its result named: the second layer's activations of the launch arguments. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v64) = Cert.KernelIdeal.Thread.act2 m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run (Cert.KernelIdeal.defs (F := Ideal)) _ _).mono (fun r h c => ⟨(h c).1.trans (Cert.KernelIdeal.Thread.result_9 m ρ c), (h c).2⟩)
    (Cert.KernelIdeal.Named.run_named (F := Ideal) m ρ)

/-- Both programs end at the same two layers of the same arguments. -/
theorem algebraic : Cert.algebraic_KernelIdeal_ReferenceIdeal := by
  intro m ρ m' ρ' _ hagree
  refine ⟨fun c => Cert.KernelIdeal.Thread.act2 m c, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v101_eq, Cert.ReferenceIdeal.RefValue.result_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
